-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S16384x4096 : Shape := ⟨2, ![16384, 4096]⟩
abbrev S16384 : Shape := ⟨1, ![16384]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S16384x4096 : S_.BroadcastsInDim S16384x4096 (![] : Fin 0 → Fin S16384x4096.rank)
  reducesTo_S16384x4096_S_d0_1 : S16384x4096.ReducesTo [0, 1] S_
  bcast_S_S16384 : S_.BroadcastsInDim S16384 (![] : Fin 0 → Fin S16384.rank)
  reducesTo_S16384_S_d0 : S16384.ReducesTo [0] S_

variable [Facts]

def fn {F : FTy → Type} [FloatOps F] (main_arg0 : FVec F S8192x4096 .f32) (main_arg1 : FVec F S16384x4096 .f32) (main_arg2 : FVec F S16384 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S16384x4096 .f32 := Host.absf main_arg1
  let main_cst_0 : FVec F S_ .f32 := constant S_ .f32 0x7F800000#32
  let main_v5 : FVec F S16384x4096 .f32 := broadcastInDim S16384x4096 ![] bcast_S_S16384x4096 main_cst_0
  let main_v6 : IVec S16384x4096 1 := cmpf .olt main_v4 main_v5
  let main_c_1 : IVec S_ 1 := constantI S_ 1 1#1
  let main_v7 : IVec S_ 1 := (fun x v => Host.reduce IntOp.andi x v reducesTo_S16384x4096_S_d0_1 h_S_) main_v6 main_c_1
  let main_v8 : IVec S_ 1 := andi main_v3 main_v7
  let main_v9 : FVec F S16384 .f32 := Host.absf main_arg2
  let main_cst_2 : FVec F S_ .f32 := constant S_ .f32 0x7F800000#32
  let main_v10 : FVec F S16384 .f32 := broadcastInDim S16384 ![] bcast_S_S16384 main_cst_2
  let main_v11 : IVec S16384 1 := cmpf .olt main_v9 main_v10
  let main_c_3 : IVec S_ 1 := constantI S_ 1 1#1
  let main_v12 : IVec S_ 1 := (fun x v => Host.reduce IntOp.andi x v reducesTo_S16384_S_d0 h_S_) main_v11 main_c_3
  let main_v13 : IVec S_ 1 := andi main_v8 main_v12
  main_v13
-- ==== Kernel.lean ====
abbrev S8192x4096 : Shape := ⟨2, ![8192, 4096]⟩
abbrev S16384x4096 : Shape := ⟨2, ![16384, 4096]⟩
abbrev S16384 : Shape := ⟨1, ![16384]⟩
abbrev S1x16384 : Shape := ⟨2, ![1, 16384]⟩
abbrev S8192x16384 : Shape := ⟨2, ![8192, 16384]⟩
abbrev S512x1024 : Shape := ⟨2, ![512, 1024]⟩
abbrev S1024x1024 : Shape := ⟨2, ![1024, 1024]⟩
abbrev S1x1024 : Shape := ⟨2, ![1, 1024]⟩

abbrev nBuf : Space → Nat
  | .hbm => 5
  | .vmem => 9
  | .smem => 0
  | _ => 0

abbrev bufTy : (tb : Table) → Fin (tcTables nBuf tb) → BufTy
  | .hbm, ⟨0, _⟩ => ⟨S8192x4096, .f32⟩
  | .hbm, ⟨1, _⟩ => ⟨S16384x4096, .f32⟩
  | .hbm, ⟨2, _⟩ => ⟨S16384, .f32⟩
  | .hbm, ⟨3, _⟩ => ⟨S1x16384, .f32⟩
  | .hbm, ⟨4, _⟩ => ⟨S8192x16384, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 16, 4], ![false, false, false]⟩

def k0_cond2 (i : grid0.Coords) : BitVec 1 :=
  let arg2 : BitVec 32 := BitVec.ofNat 32 (i 2).val
  let c3_i32 : BitVec 32 := 3#32
  let v22 : BitVec 1 := Scalar.cmpi .eq arg2 c3_i32
  let v23 : BitVec 32 := Scalar.extui v22
  let c0_i32_13 : BitVec 32 := 0#32
  let v24 : BitVec 1 := Scalar.cmpi .ne v23 c0_i32_13
  v24

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S16384_S1x16384 : S16384.ShapeCasts S1x16384
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  dot_S512x1024_S1024x1024_S512x1024_1_1_0_0_n_n_wf : DotDims.WF S512x1024 S1024x1024 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x4096.size a
  hwx0_0 : ∀ i : grid0.Coords, EltTy.bits .f32 = 32 ∨ (Rect.block (s := S8192x4096) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S16384x4096.size a
  hwx0_1 : ∀ i : grid0.Coords, EltTy.bits .f32 = 32 ∨ (Rect.block (s := S16384x4096) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x16384.size a
  hwx0_2 : ∀ i : grid0.Coords, EltTy.bits .f32 = 32 ∨ (Rect.block (s := S1x16384) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S8192x16384.size a
  hwx0_3 : ∀ i : grid0.Coords, EltTy.bits .f32 = 32 ∨ (Rect.block (s := S8192x16384) S512x1024.size (cc0_transform_3 i) (hinb0_3 i)).WholeWords (EltTy.packing .f32)

variable [Facts₀]

def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x4096 : Shape := ⟨2, ![8192, 4096]⟩
abbrev S16384x4096 : Shape := ⟨2, ![16384, 4096]⟩
abbrev S16384 : Shape := ⟨1, ![16384]⟩
abbrev S_ : Shape := ⟨0, ![]⟩
abbrev S8192x16384 : Shape := ⟨2, ![8192, 16384]⟩
abbrev S1x16384 : Shape := ⟨2, ![1, 16384]⟩

abbrev nBuf : Space → Nat
  | .hbm => 24
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S16384x4096, .f32⟩
  | .hbm, ⟨2, _⟩ => ⟨S16384, .f32⟩
  | .hbm, ⟨3, _⟩ => ⟨S_, .f32⟩
  | .hbm, ⟨4, _⟩ => ⟨S16384x4096, .f32⟩
  | .hbm, ⟨5, _⟩ => ⟨S16384x4096, .i1⟩
  | .hbm, ⟨6, _⟩ => ⟨S_, .f32⟩
  | .hbm, ⟨7, _⟩ => ⟨S16384x4096, .f32⟩
  | .hbm, ⟨8, _⟩ => ⟨S16384x4096, .i1⟩
  | .hbm, ⟨9, _⟩ => ⟨S_, .f32⟩
  | .hbm, ⟨10, _⟩ => ⟨S_, .f32⟩
  | .hbm, ⟨11, _⟩ => ⟨S16384x4096, .f32⟩
  | .hbm, ⟨12, _⟩ => ⟨S16384x4096, .f32⟩
  | .hbm, ⟨13, _⟩ => ⟨S16384x4096, .f32⟩
  | .hbm, ⟨14, _⟩ => ⟨S_, .f32⟩
  | .hbm, ⟨15, _⟩ => ⟨S16384x4096, .f32⟩
  | .hbm, ⟨16, _⟩ => ⟨S16384x4096, .f32⟩
  | .hbm, ⟨17, _⟩ => ⟨S16384x4096, .f32⟩
  | .hbm, ⟨18, _⟩ => ⟨S16384x4096, .f32⟩
  | .hbm, ⟨19, _⟩ => ⟨S16384x4096, .f32⟩
  | .hbm, ⟨20, _⟩ => ⟨S8192x16384, .f32⟩
  | .hbm, ⟨21, _⟩ => ⟨S1x16384, .f32⟩
  | .hbm, ⟨22, _⟩ => ⟨S8192x16384, .f32⟩
  | .hbm, ⟨23, _⟩ => ⟨S8192x16384, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_cst_2 : Ref sig .tc := ⟨.hbm, 10, rfl⟩
abbrev main_call0_v0 : Ref sig .tc := ⟨.hbm, 11, rfl⟩
abbrev main_call0_v1 : Ref sig .tc := ⟨.hbm, 12, rfl⟩
abbrev main_v4 : Ref sig .tc := ⟨.hbm, 13, rfl⟩
abbrev main_cst_3 : Ref sig .tc := ⟨.hbm, 14, rfl⟩
abbrev main_call1_v0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩

abbrev nD : Nat := 1
abbrev τ : Topo := Topo.v7x

variable {F : FTy → Type} [FloatOps F]

class Facts₀ : Prop where
  bcast_S_S16384x4096 : S_.BroadcastsInDim S16384x4096 (![] : Fin 0 → Fin S16384x4096.rank)
  bcast_S16384_S1x16384_1 : S16384.BroadcastsInDim S1x16384 (![1] : Fin 1 → Fin S1x16384.rank)
  bcast_S1x16384_S8192x16384_0_1 : S1x16384.BroadcastsInDim S8192x16384 (![0, 1] : Fin 2 → Fin S8192x16384.rank)
  dot_S8192x4096_S16384x4096_S8192x16384_1_1_0_0_n_n_wf : DotDims.WF S8192x4096 S16384x4096 S8192x16384 [1] [1] [0] [0] [] []

variable [Facts₀]

def dot_S8192x4096_S16384x4096_S8192x16384_1_1_0_0_n_n : DotDims S8192x4096 S16384x4096 S8192x16384 where
  lhsContracting := [1]
  rhsContracting := [1]
  lhsNonContracting := [0]
  rhsNonContracting := [0]
  lhsBatch := []
  rhsBatch := []
  wf := dot_S8192x4096_S16384x4096_S8192x16384_1_1_0_0_n_n_wf

class Facts : Prop extends Facts₀ where

variable [Facts]
-- ==== Proof.TernarySpec.lean ====
/-
  The mathematics of a ternary-weight linear layer, with no program in sight.

  A weight `w` is coded as `+1` above the threshold `t`, `-1` below `-t`, and `0` in the dead zone between (the
  threshold and its negative are kept as the two float words the programs carry; they are never evaluated). The layer's
  value at row `p`, column `q` is `∑ k, x (p, k) * code (w (q, k)) + b q`.

  Three facts are proved here. The code of any extended real is one of three REAL numbers. Hence, for a real weight, the
  straight-through form `w + (code w - w)` is `code w` (on the extended reals this needs `w` finite: at an infinity
  `w - w` is not zero). And a sum over 4096 positions is the sum of its four consecutive runs of 1024, which is how a
  product accumulated run by run meets the product taken whole; addition of extended reals is commutative and
  associative, so the regrouping needs no finiteness.
-/
import Idealize.ShloMosaic.PureOps.Ideal
import Idealize.ShloMosaic.PureOps.Ideal.Laws
import Idealize.ShloMosaic.Lib.ValueIdx
import Idealize.ShloMosaic.Lib.IdealHost

noncomputable section

namespace Cert.Ternary

open Idealize.ShloMosaic Idealize.ShloMosaic.ValueIdx

/-! ## The ternary code -/

/-- `+1` above the threshold, else `-1` below its negative, else `0`. -/
def code (w : EReal) : EReal :=
  Scalar.select (Ideal.cmp .ogt w (Ideal.ofBits .f32 0x3E99999A#32)) (Ideal.ofBits .f32 0x3F800000#32)
    (Scalar.select (Ideal.cmp .olt w (Ideal.ofBits .f32 0xBE99999A#32)) (Ideal.ofBits .f32 0xBF800000#32)
      (Ideal.ofBits .f32 0x00000000#32))

/-- The word of `-1.0` denotes the real `-1`. -/
theorem ofBits_neg_one_f32 : Ideal.ofBits .f32 0xBF800000#32 = ((-(1 : ℝ) : ℝ) : EReal) := by
  simp [Ideal.ofBits, Ideal.ieee, -EReal.coe_mul, -EReal.coe_neg]; norm_num

/-- A selection returns one of its two branches. -/
theorem select_or {α : Type} (c : BitVec 1) (a b : α) : Scalar.select c a b = a ∨ Scalar.select c a b = b := by
  by_cases h : c = 1#1
  · left; rw [h]; exact select_one a b
  · right; rw [eq_zero_of_ne_one h]; exact select_zero a b

/-- The code is always a real number: `1`, `-1` or `0`. -/
theorem code_real (w : EReal) : ∃ r : ℝ, code w = (r : EReal) := by
  unfold code
  rcases select_or (Ideal.cmp .ogt w (Ideal.ofBits .f32 0x3E99999A#32)) (Ideal.ofBits .f32 0x3F800000#32)
    (Scalar.select (Ideal.cmp .olt w (Ideal.ofBits .f32 0xBE99999A#32)) (Ideal.ofBits .f32 0xBF800000#32)
      (Ideal.ofBits .f32 0x00000000#32)) with h | h
  · exact ⟨1, by rw [h, Ideal.ofBits_one_f32]; rfl⟩
  · rw [h]
    rcases select_or (Ideal.cmp .olt w (Ideal.ofBits .f32 0xBE99999A#32)) (Ideal.ofBits .f32 0xBF800000#32)
      (Ideal.ofBits .f32 0x00000000#32) with h' | h'
    · exact ⟨-1, by rw [h', ofBits_neg_one_f32]⟩
    · exact ⟨0, by rw [h', Ideal.ofBits_zero_f32]; rfl⟩

/-- THE STRAIGHT-THROUGH IDENTITY: for a finite weight, adding back the difference between the code and the weight
    gives the code. -/
theorem add_code_sub_self (a : ℝ) : (a : EReal) + (code a - a) = code a := by
  obtain ⟨r, hr⟩ := code_real a
  rw [hr, ← EReal.coe_sub, ← EReal.coe_add]
  exact congrArg _ (by ring)

/-! ## The layer's value -/

/-- The product at position `k` of row `p` of `x` and the coded row `q` of `w`. -/
def term (x : (⟨2, ![8192, 4096]⟩ : Shape).Idx → EReal) (w : (⟨2, ![16384, 4096]⟩ : Shape).Idx → EReal)
    (p : Fin 8192) (q : Fin 16384) (k : Fin 4096) : EReal := x (ix2 p k) * code (w (ix2 q k))

/-- Row `p` of `x` against the coded row `q` of `w`, plus the bias of column `q`. -/
def linear (x : (⟨2, ![8192, 4096]⟩ : Shape).Idx → EReal) (w : (⟨2, ![16384, 4096]⟩ : Shape).Idx → EReal)
    (b : (⟨1, ![16384]⟩ : Shape).Idx → EReal) : (⟨2, ![8192, 16384]⟩ : Shape).Idx → EReal :=
  fun i => (∑ k : Fin 4096, term x w (i 0) (i 1) k) + b (ix1 (i 1))

/-! ## A sum over 4096 positions, run by run -/

/-- Position `kk` of run `a`. -/
abbrev pos (a : Fin 4) (kk : Fin 1024) : Fin 4096 := ⟨1024 * a.val + kk.val, by have := a.isLt; have := kk.isLt; omega⟩

/-- A sum over the 4096 positions is the sum over the four runs of each run's sum. -/
theorem sum_by_runs {M : Type*} [AddCommMonoid M] (f : Fin 4096 → M) :
    ∑ k : Fin 4096, f k = ∑ a : Fin 4, ∑ kk : Fin 1024, f (pos a kk) := by
  have h := (Equiv.sum_comp (finProdFinEquiv (m := 4) (n := 1024)) (fun k : Fin (4 * 1024) => f k)).symm
  refine h.trans ?_
  rw [Fintype.sum_prod_type]
  refine Finset.sum_congr rfl fun a _ => Finset.sum_congr rfl fun kk _ => ?_
  exact congrArg f (Fin.ext (by show kk.val + 1024 * a.val = 1024 * a.val + kk.val; omega))

/-- Position `kk` of run `a` for ANY natural `a`, wrapped at 4096 so that it is defined everywhere; for `a < 4`
    nothing wraps. -/
def posN (a : ℕ) (kk : Fin 1024) : Fin 4096 := ⟨(1024 * a + kk.val) % 4096, Nat.mod_lt _ (by decide)⟩

theorem posN_eq_pos (a : Fin 4) (kk : Fin 1024) : posN a.val kk = pos a kk :=
  Fin.ext (Nat.mod_eq_of_lt (by have := a.isLt; have := kk.isLt; omega))

/-- The sum of the first `n` runs. -/
def runs {M : Type*} [AddCommMonoid M] (f : Fin 4096 → M) (n : ℕ) : M :=
  ∑ a ∈ Finset.range n, ∑ kk : Fin 1024, f (posN a kk)

theorem runs_zero {M : Type*} [AddCommMonoid M] (f : Fin 4096 → M) : runs f 0 = 0 := Finset.sum_range_zero _

/-- One more run: the accumulation step. -/
theorem runs_succ {M : Type*} [AddCommMonoid M] (f : Fin 4096 → M) (n : ℕ) :
    runs f (n + 1) = runs f n + ∑ kk : Fin 1024, f (posN n kk) := Finset.sum_range_succ _ _

/-- All four runs are the whole sum. -/
theorem runs_four {M : Type*} [AddCommMonoid M] (f : Fin 4096 → M) : runs f 4 = ∑ k : Fin 4096, f k := by
  rw [sum_by_runs]
  unfold runs
  rw [← Fin.sum_univ_eq_sum_range (fun a => ∑ kk : Fin 1024, f (posN a kk)) 4]
  exact Finset.sum_congr rfl fun a _ => Finset.sum_congr rfl fun kk _ => congrArg f (posN_eq_pos a kk)

end Cert.Ternary

end
-- ==== Proof.KernelBlocks.lean ====
/-
  Where each block of the kernel's windows sits in its array.

  The grid has 16 × 16 × 4 points in row-major order, so point `n` is output block row `n / 64`, output block column
  `n / 4 % 16`, K-step `n % 4`. At that point the kernel sees rows `512·(n/64) ..` of `x` and rows `1024·(n/4 % 16) ..`
  of `w`, both at columns `1024·(n % 4) ..`, and columns `1024·(n/4 % 16) ..` of the bias, which reaches the kernel laid
  out as one row of 16384 (a reshape of the bias vector). Entry `(p, q)` of the point's output block is entry
  `(rowOf n p, colOf n q)` of the result.
-/
import proofs.«148540_j31207232372816_1_alg».proof.Proof.Gen.KernelIdeal.Frame
import proofs.«148540_j31207232372816_1_alg».proof.Proof.TernarySpec
import Idealize.ShloMosaic.Lib.Pipeline.Value
import Idealize.ShloMosaic.Lib.ValueLayout
import Idealize.ShloMosaic.Lib.StableHlo.Run

noncomputable section

namespace Cert.KernelIdeal.Ternary

open Cert.KernelIdeal Cert.KernelIdeal.Gen Idealize.ShloMosaic Idealize.ShloMosaic.TcCoe Idealize.SL.Sem
open Idealize.ShloMosaic.ValueIdx Idealize.ShloMosaic.StableHlo
open Cert.Ternary (posN)

variable (m : (ℓ : Loc nD τ sig) → Buf (Elt Ideal) ℓ)

/-! ## The arrays and the blocks, at their literal types -/

abbrev xarr (c : Dev nD) : Vec Ideal S8192x4096 .f32 := m ((c : Thread nD τ).loc main_arg0)
abbrev warr (c : Dev nD) : Vec Ideal S16384x4096 .f32 := m ((c : Thread nD τ).loc main_arg1)
abbrev barr (c : Dev nD) : Vec Ideal S16384 .f32 := m ((c : Thread nD τ).loc main_arg2)

abbrev xblk (c : Dev nD) (t : Fin cfg0.N) : Vec Ideal S512x1024 .f32 := iblk m c 0 t
abbrev wblk (c : Dev nD) (t : Fin cfg0.N) : Vec Ideal S1024x1024 .f32 := iblk m c 1 t
abbrev bblk (c : Dev nD) (t : Fin cfg0.N) : Vec Ideal S1x1024 .f32 := iblk m c 2 t

/-- The result's row that row `p` of point `n`'s output block is (wrapped, so defined for every `n`). -/
def rowOf (n : ℕ) (p : Fin 512) : Fin 8192 := ⟨(512 * (n / 64) + p.val) % 8192, Nat.mod_lt _ (by decide)⟩

/-- The result's column that column `q` of point `n`'s output block is. -/
def colOf (n : ℕ) (q : Fin 1024) : Fin 16384 := ⟨(1024 * (n / 4 % 16) + q.val) % 16384, Nat.mod_lt _ (by decide)⟩

/-! ## The index maps, decided once over the grid -/

theorem idx_facts : ∀ t : Fin cfg0.N,
    win0_0.index t (0 : Fin 2) = t.val / 64 ∧ win0_0.index t (1 : Fin 2) = t.val % 4
    ∧ win0_1.index t (0 : Fin 2) = t.val / 4 % 16 ∧ win0_1.index t (1 : Fin 2) = t.val % 4
    ∧ win0_2.index t (0 : Fin 2) = 0 ∧ win0_2.index t (1 : Fin 2) = t.val / 4 % 16
    ∧ win0_3.index t (0 : Fin 2) = t.val / 64 ∧ win0_3.index t (1 : Fin 2) = t.val / 4 % 16 :=
  (by decide +kernel : ∀ t : Fin grid0.N, _)

theorem point_lt (t : Fin cfg0.N) : t.val < 1024 := lt_of_lt_of_eq t.isLt N_0

/-! ## The input blocks read back to the arrays -/

/-- The `x` block at a point: rows of the point's output block row, columns of its K-step. -/
theorem xblk_apply (c : Dev nD) (t : Fin cfg0.N) (p : Fin 512) (kk : Fin 1024) :
    xblk m c t (ix2 p kk) = xarr m c (ix2 (rowOf t.val p) (posN (t.val % 4) kk)) := by
  have hN := point_lt t
  obtain ⟨e0, e1, -⟩ := idx_facts t
  show iblk m c 0 t (ix2 p kk) = _
  unfold iblk
  rw [View.read_apply]
  show V m c main_arg0 _ = _
  rw [V_main_arg0]
  refine congrArg (m ((c : Thread nD τ).loc main_arg0)) (funext fun a => Fin.ext ?_)
  match a with
  | ⟨0, _⟩ =>
    show win0_0.index t (0 : Fin 2) * 512 + 1 * p.val = (512 * (t.val / 64) + p.val) % 8192
    have := p.isLt; rw [e0]; omega
  | ⟨1, _⟩ =>
    show win0_0.index t (1 : Fin 2) * 1024 + 1 * kk.val = (1024 * (t.val % 4) + kk.val) % 4096
    have := kk.isLt; rw [e1]; omega

/-- The `w` block at a point: rows of the point's output block COLUMN, columns of its K-step. -/
theorem wblk_apply (c : Dev nD) (t : Fin cfg0.N) (q : Fin 1024) (kk : Fin 1024) :
    wblk m c t (ix2 q kk) = warr m c (ix2 (colOf t.val q) (posN (t.val % 4) kk)) := by
  have hN := point_lt t
  obtain ⟨-, -, e2, e3, -⟩ := idx_facts t
  show iblk m c 1 t (ix2 q kk) = _
  unfold iblk
  rw [View.read_apply]
  show V m c main_arg1 _ = _
  rw [V_main_arg1]
  refine congrArg (m ((c : Thread nD τ).loc main_arg1)) (funext fun a => Fin.ext ?_)
  match a with
  | ⟨0, _⟩ =>
    show win0_1.index t (0 : Fin 2) * 1024 + 1 * q.val = (1024 * (t.val / 4 % 16) + q.val) % 16384
    have := q.isLt; rw [e2]; omega
  | ⟨1, _⟩ =>
    show win0_1.index t (1 : Fin 2) * 1024 + 1 * kk.val = (1024 * (t.val % 4) + kk.val) % 4096
    have := kk.isLt; rw [e3]; omega

/-- The bias as the kernel's third window finds it: the bias vector as one row. -/
theorem bias_row (c : Dev nD) :
    (V m c main_v0 : S1x16384.Idx → EReal) = shapeCast S1x16384 (barr m c) shapeCasts_S16384_S1x16384 := by
  dsimp only [V, hostOps0]
  after_results
  rfl

/-- The bias block at a point: the bias of the point's output block columns. -/
theorem bblk_apply (c : Dev nD) (t : Fin cfg0.N) (q : Fin 1024) :
    bblk m c t (ix2 (0 : Fin 1) q) = barr m c (ix1 (colOf t.val q)) := by
  have hN := point_lt t
  obtain ⟨-, -, -, -, e4, e5, -⟩ := idx_facts t
  show iblk m c 2 t (ix2 (0 : Fin 1) q) = _
  unfold iblk
  rw [View.read_apply]
  show V m c main_v0 _ = _
  have hidx : ((cfg0.win 2).blk t).view.emb (ix2 (0 : Fin 1) q) = ix2 (0 : Fin 1) (colOf t.val q) :=
    funext fun a => Fin.ext (by
      match a with
      | ⟨0, _⟩ =>
        show win0_2.index t (0 : Fin 2) * 1 + 1 * 0 = 0
        rw [e4]
      | ⟨1, _⟩ =>
        show win0_2.index t (1 : Fin 2) * 1024 + 1 * q.val = (1024 * (t.val / 4 % 16) + q.val) % 16384
        have := q.isLt; rw [e5]; omega)
  rw [hidx]
  exact (congrFun (bias_row m c) _).trans (shapeCast_a_1a_apply (barr m c) _ 0 (colOf t.val q))

end Cert.KernelIdeal.Ternary

end
-- ==== Proof.LibDotLastAxes.lean ====
/-
  A two-dimensional matrix product whose two operands are both contracted on their LAST axis, read at an entry.

  The dimension numbers are those of `rows × contraction` times `columns × contraction`: left contracting axis 1,
  right contracting axis 1, the left operand's axis 0 then the right operand's axis 0 as the result's two axes, no batch
  axis. At result entry `(p, q)` and contraction position `k` the left operand is read at `(p, k)` and the right
  operand at `(q, k)`. So, on the extended reals, a kernel's `matmul` into the zero accumulator and a host
  `dot_general` with these numbers are both the sum `∑ k, l (p, k) * r (q, k)` over `k : Fin K` — the product of the
  left operand with the TRANSPOSE of the right one.

  The dimension record is a variable; its six printed fields enter as hypotheses (each is `rfl` for a printed record).
-/
import Idealize.ShloMosaic.PureOps.Ideal
import Idealize.ShloMosaic.PureOps.Ideal.Laws
import Idealize.ShloMosaic.Lib.ValueIdx

noncomputable section

namespace Cert.DotLastAxes

open Idealize.ShloMosaic Idealize.ShloMosaic.ValueIdx

variable {R K C : ℕ} (d : DotDims (⟨2, ![R, K]⟩ : Shape) (⟨2, ![C, K]⟩ : Shape) (⟨2, ![R, C]⟩ : Shape))

/-- An index's coordinate depends only on the axis' position, not on the proof that the position is an axis. -/
theorem coord_of_pos_eq {s : Shape} (j : s.Idx) (a b : ℕ) (ha : a < s.rank) (hb : b < s.rank) (h : a = b) :
    (j ⟨a, ha⟩).val = (j ⟨b, hb⟩).val := by subst h; rfl

/-- The left operand's kept axis carries the result's row. -/
theorem lhs_kept (hlb : d.lhsBatch = []) (hln : d.lhsNonContracting = [0])
    (j : (⟨2, ![R, C]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  simp only [Fin.val_cast]
  exact coord_of_pos_eq j _ _ _ _ (by simp [hlb, hln])

/-- The left operand's last axis carries the contraction position. -/
theorem lhs_contracted (hlc : d.lhsContracting = [1]) (j : (⟨2, ![R, C]⟩ : Shape).Idx) (k : d.contr.Idx) :
    (d.lhsIdx j k 1).val = (k ⟨0, by rw [d.rank_contr, hlc]; exact Nat.one_pos⟩).val :=
  d.lhsIdx_val_of_single hlc j k

/-- The right operand's kept axis carries the result's COLUMN: among the result's axes it comes after the left operand's
    one kept axis. -/
theorem rhs_kept (hlb : d.lhsBatch = []) (hrb : d.rhsBatch = []) (hln : d.lhsNonContracting = [0]) (hrn : d.rhsNonContracting = [0])
    (j : (⟨2, ![R, C]⟩ : Shape).Idx) (k : d.contr.Idx) : (d.rhsIdx j k 0).val = (j 1).val := by
  unfold DotDims.rhsIdx
  rw [dif_neg (by rw [hrb]; exact List.not_mem_nil), dif_pos (by rw [hrn]; exact List.mem_singleton.mpr rfl)]
  simp only [Fin.val_cast]
  exact coord_of_pos_eq j _ _ _ _ (by simp [hlb, hln, hrn])

/-- The right operand's last axis carries the contraction position too. -/
theorem rhs_contracted (hrc : d.rhsContracting = [1]) (j : (⟨2, ![R, C]⟩ : Shape).Idx) (k : d.contr.Idx) :
    (d.rhsIdx j k 1).val = (k ⟨0, by rw [d.rank_contr, ← d.length_contracting, hrc]; exact Nat.one_pos⟩).val :=
  d.rhsIdx_val_of_single hrc j k

/-- The contraction shape has one axis, -/
theorem contr_rank (hlc : d.lhsContracting = [1]) : d.contr.rank = 1 := by rw [d.rank_contr, hlc]; rfl

/-- of extent `K`. -/
theorem contr_size (hlc : d.lhsContracting = [1]) :
    d.contr.size ⟨0, by rw [contr_rank d hlc]; exact Nat.one_pos⟩ = K := by
  rw [d.size_contr 0 (by rw [hlc]; exact Nat.one_pos)]
  simp [hlc]

/-- THE SUM over the dot's own contraction index, re-indexed by `k : Fin K`, the operands read at `(p, k)` and `(q, k)`. -/
theorem sum_contr (hlc : d.lhsContracting = [1]) (hrc : d.rhsContracting = [1]) (hln : d.lhsNonContracting = [0])
    (hrn : d.rhsNonContracting = [0]) (hlb : d.lhsBatch = []) (hrb : d.rhsBatch = [])
    (l : (⟨2, ![R, K]⟩ : Shape).Idx → EReal) (r : (⟨2, ![C, K]⟩ : Shape).Idx → EReal) (p : Fin R) (q : Fin C) :
    ∑ k : d.contr.Idx, l (d.lhsIdx (ix2 p q) k) * r (d.rhsIdx (ix2 p q) k) = ∑ k : Fin K, l (ix2 p k) * r (ix2 q k) := by
  rw [← Equiv.sum_comp (contrEquiv1 d K (contr_rank d hlc) (contr_size d hlc)).symm]
  refine Finset.sum_congr rfl fun k _ => ?_
  have hk := contrEquiv1_symm_val d K (contr_rank d hlc) (contr_size d hlc) k
  have el : d.lhsIdx (ix2 p q) ((contrEquiv1 d K (contr_rank d hlc) (contr_size d hlc)).symm k) = ix2 p k := by
    funext a; apply Fin.ext
    match a with
    | ⟨0, _⟩ => exact lhs_kept d hlb hln _ _
    | ⟨1, _⟩ => exact (lhs_contracted d hlc _ _).trans hk
  have er : d.rhsIdx (ix2 p q) ((contrEquiv1 d K (contr_rank d hlc) (contr_size d hlc)).symm k) = ix2 q k := by
    funext a; apply Fin.ext
    match a with
    | ⟨0, _⟩ => exact rhs_kept d hlb hrb hln hrn _ _
    | ⟨1, _⟩ => exact (rhs_contracted d hrc _ _).trans hk
  rw [el, er]

/-- A kernel's matrix product into the zero accumulator, at an entry, on the extended reals. -/
theorem matmul_zero_apply {φ₁ φ₂ : FTy} (hlc : d.lhsContracting = [1]) (hrc : d.rhsContracting = [1]) (hln : d.lhsNonContracting = [0])
    (hrn : d.rhsNonContracting = [0]) (hlb : d.lhsBatch = []) (hrb : d.rhsBatch = []) (prec : Option ContractPrecision)
    (l : FVec Ideal (⟨2, ![R, K]⟩ : Shape) φ₁) (r : FVec Ideal (⟨2, ![C, K]⟩ : Shape) φ₂) (p : Fin R) (q : Fin C) :
    FloatOps.matmul d prec l r (constant (⟨2, ![R, C]⟩ : Shape) .f32 0x00000000#32) (ix2 p q) = ∑ k : Fin K, l (ix2 p k) * r (ix2 q k) :=
  (Ideal.matmul_constant_zero_apply d prec l r (ix2 p q)).trans (sum_contr d hlc hrc hln hrn hlb hrb l r p q)

/-- The host's `dot_general` with the same numbers, at an entry, on the extended reals: the same sum. -/
theorem dotGeneral_apply {φ₁ φ₂ : FTy} (hlc : d.lhsContracting = [1]) (hrc : d.rhsContracting = [1]) (hln : d.lhsNonContracting = [0])
    (hrn : d.rhsNonContracting = [0]) (hlb : d.lhsBatch = []) (hrb : d.rhsBatch = []) (prec : Option ContractPrecision) (sched : HostSchedule)
    (l : FVec Ideal (⟨2, ![R, K]⟩ : Shape) φ₁) (r : FVec Ideal (⟨2, ![C, K]⟩ : Shape) φ₂) (p : Fin R) (q : Fin C) :
    FloatOps.dotGeneral d prec sched l r (ix2 p q) = ∑ k : Fin K, l (ix2 p k) * r (ix2 q k) :=
  (Ideal.dotGeneral_apply d prec sched l r (ix2 p q)).trans (sum_contr d hlc hrc hln hrn hlb hrb l r p q)

end Cert.DotLastAxes

end
-- ==== Proof.KernelPayloads.lean ====
/-
  The kernel body's three stored values, each read at one entry on the extended reals.

  The body keeps a running 512×1024 block `acc`. Its first store clears the block: every entry is `0`. Its second
  store adds to the block the product of a 512×1024 block of `x` with the TRANSPOSE of the coded 1024×1024 block of
  `w`: entry `(p, q)` grows by `∑ kk, x (p, kk) * code (w (q, kk))` (the narrowing of both factors to sixteen bits
  is the identity on the extended reals, and the select-of-compares on the weight is the ternary code). Its third store
  is the block plus the bias row laid along every row: entry `(p, q)` is `acc (p, q) + b (0, q)`.
-/
import proofs.«148540_j31207232372816_1_alg».proof.Proof.Gen.KernelIdeal.Skeleton
import proofs.«148540_j31207232372816_1_alg».proof.Proof.TernarySpec
import proofs.«148540_j31207232372816_1_alg».proof.Proof.LibDotLastAxes
import Idealize.ShloMosaic.Lib.Pipeline.Value
import Idealize.ShloMosaic.Lib.ValueLayout

noncomputable section

namespace Cert.KernelIdeal.Ternary

open Cert.KernelIdeal Cert.KernelIdeal.Gen Idealize.ShloMosaic Idealize.ShloMosaic.ValueIdx

/-- The cleared block: every entry is zero. -/
theorem cleared_apply (p : Fin 512) (q : Fin 1024) : k0_pay1 (F := Ideal) (ix2 p q) = 0 := by
  unfold k0_pay1
  simp only [shapeCast_self]
  exact Ideal.ofBits_zero_f32

/-- One accumulation step: the block grows, entry by entry, by the row of the `x` block against the coded row of the
    `w` block. -/
theorem step_apply (xb : Vec Ideal S512x1024 .f32) (wb : Vec Ideal S1024x1024 .f32) (acc : Vec Ideal S512x1024 .f32)
    (p : Fin 512) (q : Fin 1024) :
    k0_pay2 (F := Ideal) xb wb acc (ix2 p q)
      = acc (ix2 p q) + ∑ kk : Fin 1024, xb (ix2 p kk) * Cert.Ternary.code (wb (ix2 q kk)) := by
  unfold k0_pay2
  simp only [shapeCast_self]
  refine congrArg (acc (ix2 p q) + ·) ?_
  refine (Cert.DotLastAxes.matmul_zero_apply dot_S512x1024_S1024x1024_S512x1024_1_1_0_0_n_n rfl rfl rfl rfl rfl rfl none _ _ p q).trans ?_
  exact Finset.sum_congr rfl fun kk _ => rfl

/-- The last step's output: the block plus the bias of each column. -/
theorem biased_apply (acc : Vec Ideal S512x1024 .f32) (bb : Vec Ideal S1x1024 .f32) (p : Fin 512) (q : Fin 1024) :
    k0_pay3 (F := Ideal) acc bb (ix2 p q) = acc (ix2 p q) + bb (ix2 (0 : Fin 1) q) := by
  unfold k0_pay3
  simp only [shapeCast_self]
  exact congrArg (acc (ix2 p q) + ·) (broadcastTo_1b_ab_apply bb _ p q)

end Cert.KernelIdeal.Ternary

end
-- ==== Proof.KernelPieces.lean ====
/-
  What one run of the kernel body leaves behind, in each of its three control cases, as values.

  The body works on whole staging buffers: it loads the `x` block, the `w` block and (in the last case) the bias block
  whole, and every store covers its whole buffer. So what a case leaves in the running block is the stored value
  itself, with each load replaced by the buffer's contents:

    first K-step   the block is cleared, read back, and one accumulation step is stored:  step x w cleared
    middle K-steps one accumulation step over what the step before left:                   step x w previous
    last K-step    the same step, and the OUTPUT block receives it plus the bias row:      biased (step x w previous) b

  These hold for any reading of the float operations; the arithmetic is opened elsewhere.
-/
import proofs.«148540_j31207232372816_1_alg».proof.Proof.Gen.KernelIdeal.Frame
import Idealize.ShloMosaic.Lib.Pipeline.Value
import Idealize.ShloMosaic.Lib.Tactic

noncomputable section

namespace Cert.KernelIdeal.Ternary

open Cert.KernelIdeal Cert.KernelIdeal.Gen Idealize.ShloMosaic Idealize.ShloMosaic.TcCoe Idealize.SL.Sem

variable {F : FTy → Type} [FloatOps F]

/-- Every access of the body starts at the buffer's origin. -/
theorem zero_offsets : (![0, 0] : Fin 2 → Nat) = fun _ => 0 := funext fun a => by fin_cases a <;> rfl

/-- First K-step: the running block ends at one step over the cleared block. -/
theorem scratch_first (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (hc0 : cond0_0 i) (hc1 : ¬cond0_1 i)
    (x0 : Vec F S512x1024 .f32) (x1 : Vec F S1024x1024 .f32) (x2 : Vec F S1x1024 .f32) :
    sout0_A_0 c i arg3 harg3 arg4 harg4 arg5 harg5 arg6 harg6 arg7 harg7 hc0 hc1 x0 x1 x2 = k0_pay2 x0 x1 (k0_pay1 (F := F)) := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S512x1024) zero_offsets]
  simp only [View.readAt_eq_ld, harg3.read_unread, harg4.read_unread, harg5.read_unread, harg7.read_unread,
    View.readCov_unit_zero (S := S512x1024) _ zero_offsets, View.ld_unit_zero (S := S512x1024) zero_offsets,
    View.ld_unit_zero (S := S1024x1024) zero_offsets, View.ld_unit_zero (S := S1x1024) zero_offsets]

/-- A middle K-step: one step over what the point before left. -/
theorem scratch_middle (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (hc0 : ¬cond0_0 i) (hc1 : ¬cond0_1 i)
    (x0 : Vec F S512x1024 .f32) (x1 : Vec F S1024x1024 .f32) (x2 : Vec F S1x1024 .f32) (xs0 : Vec F S512x1024 .f32) :
    sout0_B_0 c i arg3 harg3 arg4 harg4 arg5 harg5 arg6 harg6 arg7 harg7 hc0 hc1 x0 x1 x2 xs0 = k0_pay2 x0 x1 xs0 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  sl_unfold_words
  rw [View.canon_unit_zero zero_offsets]
  simp only [View.readAt_eq_ld, harg3.read_unread, harg4.read_unread, harg5.read_unread, harg7.read_unread,
    View.readCov_unit_zero (S := S512x1024) _ zero_offsets, View.ld_unit_zero (S := S512x1024) zero_offsets,
    View.ld_unit_zero (S := S1024x1024) zero_offsets, View.ld_unit_zero (S := S1x1024) zero_offsets]

/-- The last K-step leaves the same in the running block, -/
theorem scratch_last (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (hc0 : ¬cond0_0 i) (hc1 : cond0_1 i)
    (x0 : Vec F S512x1024 .f32) (x1 : Vec F S1024x1024 .f32) (x2 : Vec F S1x1024 .f32) (xs0 : Vec F S512x1024 .f32) :
    sout0_C_0 c i arg3 harg3 arg4 harg4 arg5 harg5 arg6 harg6 arg7 harg7 hc0 hc1 x0 x1 x2 xs0 = k0_pay2 x0 x1 xs0 := by
  unfold sout0_C_0
  rw [View.read_writes_eq_canon _ _ _ (scover0_C_0 c i arg3 harg3 arg4 harg4 arg5 harg5 arg6 harg6 arg7 harg7 hc0 hc1 x0 x1 x2 xs0)]
  unfold kernelRun0_C
  dsimp only
  sl_unfold_words
  rw [View.canon_unit_zero zero_offsets]
  simp only [View.readAt_eq_ld, harg3.read_unread, harg4.read_unread, harg5.read_unread, harg7.read_unread,
    View.readCov_unit_zero (S := S512x1024) _ zero_offsets, View.ld_unit_zero (S := S512x1024) zero_offsets,
    View.ld_unit_zero (S := S1024x1024) zero_offsets, View.ld_unit_zero (S := S1x1024) zero_offsets]

/-- and stores it, plus the bias row, to the output block. -/
theorem output_last (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (hc0 : ¬cond0_0 i) (hc1 : cond0_1 i)
    (x0 : Vec F S512x1024 .f32) (x1 : Vec F S1024x1024 .f32) (x2 : Vec F S1x1024 .f32) (xs0 : Vec F S512x1024 .f32) :
    out0_C_3 c i arg3 harg3 arg4 harg4 arg5 harg5 arg6 harg6 arg7 harg7 hc0 hc1 x0 x1 x2 xs0 = k0_pay3 (k0_pay2 x0 x1 xs0) x2 := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  sl_unfold_words
  rw [View.canon_unit_zero zero_offsets]
  simp only [View.readAt_eq_ld, harg3.read_unread, harg4.read_unread, harg5.read_unread, harg7.read_unread,
    View.readCov_unit_zero (S := S512x1024) _ zero_offsets, View.ld_unit_zero (S := S512x1024) zero_offsets,
    View.ld_unit_zero (S := S1024x1024) zero_offsets, View.ld_unit_zero (S := S1x1024) zero_offsets]

end Cert.KernelIdeal.Ternary

end
-- ==== Proof.KernelAccum.lean ====
/-
  What the running block holds after every grid point.

  Within one output block the four K-steps run at four consecutive points. After the point with K-step `k`, entry
  `(p, q)` of the running block is the sum of the first `k + 1` runs of the products `x (P, ·) * code (w (Q, ·))`,
  where `(P, Q)` is the entry of the result that `(p, q)` is at that point. The first K-step starts from the cleared
  block (`0 + ` one run); every later one adds one run to what the point before left, and the point before belongs to
  the same output block, so `(P, Q)` is the same there. The proof is an induction on the point; no point is enumerated.
-/
import proofs.«148540_j31207232372816_1_alg».proof.Proof.KernelBlocks
import proofs.«148540_j31207232372816_1_alg».proof.Proof.KernelPayloads
import proofs.«148540_j31207232372816_1_alg».proof.Proof.KernelPieces

noncomputable section

namespace Cert.KernelIdeal.Ternary

open Cert.KernelIdeal Cert.KernelIdeal.Gen Idealize.ShloMosaic Idealize.ShloMosaic.TcCoe Idealize.SL.Sem
open Idealize.ShloMosaic.ValueIdx
open Cert.Ternary (posN term runs runs_zero runs_succ)

variable (m : (ℓ : Loc nD τ sig) → Buf (Elt Ideal) ℓ)

/-- One accumulation step at a point, in terms of the whole arrays: entry `(p, q)` grows by the point's run of products. -/
theorem step_at (c : Dev nD) (t : Fin cfg0.N) (acc : Vec Ideal S512x1024 .f32) (p : Fin 512) (q : Fin 1024) :
    k0_pay2 (F := Ideal) (xblk m c t) (wblk m c t) acc (ix2 p q)
      = acc (ix2 p q) + ∑ kk : Fin 1024, term (xarr m c) (warr m c) (rowOf t.val p) (colOf t.val q) (posN (t.val % 4) kk) := by
  refine (step_apply (xblk m c t) (wblk m c t) acc p q).trans ?_
  refine congrArg (acc (ix2 p q) + ·) (Finset.sum_congr rfl fun kk _ => ?_)
  exact congrArg₂ (· * ·) (xblk_apply m c t p kk) (congrArg Cert.Ternary.code (wblk_apply m c t q kk))

/-- At a first K-step the running block ends at one step over the cleared block. -/
theorem scratch_at_first (c : Dev nD) (t : Fin cfg0.N) (h0 : t.val % 4 = 0) :
    (outsAt0 m c t.val t.isLt).2 = k0_pay2 (xblk m c t) (wblk m c t) (k0_pay1 (F := Ideal)) := by
  have h1 : ¬t.val % 4 = 3 := by omega
  rw [outsAt0_A m c t h0 h1]
  dsimp only
  exact scratch_first (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h))
    (iblk m c 0 t) (iblk m c 1 t) (iblk m c 2 t)

/-- At a later K-step it ends at one step over what the point before left. -/
theorem scratch_at_later (c : Dev nD) (t : Fin cfg0.N) (h0 : ¬t.val % 4 = 0) :
    (outsAt0 m c t.val t.isLt).2
      = k0_pay2 (xblk m c t) (wblk m c t) (outsAt0 m c (t.val - 1) (Nat.lt_of_le_of_lt (Nat.sub_le _ _) t.isLt)).2 := by
  by_cases h1 : t.val % 4 = 3
  · rw [outsAt0_C m c t h0 h1]
    dsimp only
    exact scratch_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1)
      (iblk m c 0 t) (iblk m c 1 t) (iblk m c 2 t) (outsAt0 m c (t.val - 1) (Nat.lt_of_le_of_lt (Nat.sub_le _ _) t.isLt)).2
  · rw [outsAt0_B m c t h0 h1]
    dsimp only
    exact scratch_middle (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h))
      (iblk m c 0 t) (iblk m c 1 t) (iblk m c 2 t) (outsAt0 m c (t.val - 1) (Nat.lt_of_le_of_lt (Nat.sub_le _ _) t.isLt)).2

/-- THE RUNNING SUM: after point `n` the running block's entry `(p, q)` is the sum of the first `n % 4 + 1` runs. -/
theorem scratch_runs (c : Dev nD) : ∀ (n : ℕ) (h : n < cfg0.N) (p : Fin 512) (q : Fin 1024),
    (outsAt0 m c n h).2 (ix2 p q) = runs (term (xarr m c) (warr m c) (rowOf n p) (colOf n q)) (n % 4 + 1) := by
  intro n
  induction n with
  | zero =>
    intro h p q
    refine (congrFun (scratch_at_first m c ⟨0, h⟩ rfl) (ix2 p q)).trans ?_
    refine (step_at m c ⟨0, h⟩ _ p q).trans ?_
    rw [cleared_apply]
    show 0 + ∑ kk : Fin 1024, term (xarr m c) (warr m c) (rowOf 0 p) (colOf 0 q) (posN 0 kk) = runs _ (0 + 1)
    rw [runs_succ, runs_zero]
  | succ n ih =>
    intro h p q
    have hN : n + 1 < 1024 := lt_of_lt_of_eq h N_0
    by_cases h0 : (n + 1) % 4 = 0
    · refine (congrFun (scratch_at_first m c ⟨n + 1, h⟩ h0) (ix2 p q)).trans ?_
      refine (step_at m c ⟨n + 1, h⟩ _ p q).trans ?_
      rw [cleared_apply]
      show 0 + ∑ kk : Fin 1024, term (xarr m c) (warr m c) (rowOf (n + 1) p) (colOf (n + 1) q) (posN ((n + 1) % 4) kk)
          = runs _ ((n + 1) % 4 + 1)
      rw [h0, runs_succ, runs_zero]
    · refine (congrFun (scratch_at_later m c ⟨n + 1, h⟩ h0) (ix2 p q)).trans ?_
      refine (step_at m c ⟨n + 1, h⟩ _ p q).trans ?_
      show (outsAt0 m c n (Nat.lt_of_succ_lt h)).2 (ix2 p q)
            + ∑ kk : Fin 1024, term (xarr m c) (warr m c) (rowOf (n + 1) p) (colOf (n + 1) q) (posN ((n + 1) % 4) kk)
          = runs _ ((n + 1) % 4 + 1)
      rw [ih (Nat.lt_of_succ_lt h) p q]
      have e1 : rowOf n p = rowOf (n + 1) p := Fin.ext (by
        show (512 * (n / 64) + p.val) % 8192 = (512 * ((n + 1) / 64) + p.val) % 8192
        have : n / 64 = (n + 1) / 64 := by omega
        rw [this])
      have e2 : colOf n q = colOf (n + 1) q := Fin.ext (by
        show (1024 * (n / 4 % 16) + q.val) % 16384 = (1024 * ((n + 1) / 4 % 16) + q.val) % 16384
        have : n / 4 % 16 = (n + 1) / 4 % 16 := by omega
        rw [this])
      have e3 : (n + 1) % 4 = n % 4 + 1 := by omega
      rw [e1, e2, e3]
      exact (runs_succ _ _).symm

end Cert.KernelIdeal.Ternary

end
-- ==== Proof.KernelResult.lean ====
/-
  The kernel's result array is the ternary linear layer.

  Only the points with the last K-step write their output block back. There the body stores the running block plus the
  bias row; the running block is by then the sum of all four runs, which is the whole sum over the 4096 positions. So
  the block written at such a point is the layer's value restricted to the block. Every entry `(P, Q)` of the result
  lies in exactly the block of the point with output block row `P / 512`, column `Q / 1024` and the last K-step, so the
  written blocks cover the array, and the array after the run is the layer's value everywhere.
-/
import proofs.«148540_j31207232372816_1_alg».proof.Proof.Gen.KernelIdeal.Value
import proofs.«148540_j31207232372816_1_alg».proof.Proof.KernelAccum

noncomputable section

namespace Cert.KernelIdeal.Ternary

open Cert.KernelIdeal Cert.KernelIdeal.Gen Idealize.ShloMosaic Idealize.ShloMosaic.TcCoe Idealize.SL.Sem
open Idealize.ShloMosaic.ValueIdx
open Idealize.ShloMosaic.Pipeline (Dat)
open Cert.Ternary (posN term runs runs_succ runs_four linear)

variable (m : (ℓ : Loc nD τ sig) → Buf (Elt Ideal) ℓ) (ρ : Dev nD → PrngReg)

/-- What the result array holds after the run: the layer's value of the three arguments. -/
abbrev result (c : Dev nD) : Buf (Elt Ideal) ((c : Thread nD τ).loc main_v1) :=
  linear (xarr m c) (warr m c) (barr m c)

/-- At a last K-step, entry `(p, q)` of what the body stores to the output block is the layer's value at the entry of
    the result that `(p, q)` is: three runs from the point before, the fourth from this step, and the bias. -/
theorem output_at_last (c : Dev nD) (t : Fin cfg0.N) (h1 : t.val % 4 = 3) (p : Fin 512) (q : Fin 1024) :
    k0_pay3 (F := Ideal) (k0_pay2 (xblk m c t) (wblk m c t) (outsAt0 m c (t.val - 1) (Nat.lt_of_le_of_lt (Nat.sub_le _ _) t.isLt)).2) (bblk m c t) (ix2 p q)
      = result m c (ix2 (rowOf t.val p) (colOf t.val q)) := by
  have hN := point_lt t
  show k0_pay3 (F := Ideal) (k0_pay2 (xblk m c t) (wblk m c t) (outsAt0 m c (t.val - 1) (Nat.lt_of_le_of_lt (Nat.sub_le _ _) t.isLt)).2) (bblk m c t) (ix2 p q)
      = (∑ k : Fin 4096, term (xarr m c) (warr m c) (rowOf t.val p) (colOf t.val q) k) + barr m c (ix1 (colOf t.val q))
  refine (biased_apply _ (bblk m c t) p q).trans ?_
  rw [bblk_apply m c t q]
  refine congrArg (· + barr m c (ix1 (colOf t.val q))) ?_
  refine (step_at m c t _ p q).trans ?_
  rw [scratch_runs m c (t.val - 1) _ p q]
  have e1 : rowOf (t.val - 1) p = rowOf t.val p := Fin.ext (by
    show (512 * ((t.val - 1) / 64) + p.val) % 8192 = (512 * (t.val / 64) + p.val) % 8192
    have : (t.val - 1) / 64 = t.val / 64 := by omega
    rw [this])
  have e2 : colOf (t.val - 1) q = colOf t.val q := Fin.ext (by
    show (1024 * ((t.val - 1) / 4 % 16) + q.val) % 16384 = (1024 * (t.val / 4 % 16) + q.val) % 16384
    have : (t.val - 1) / 4 % 16 = t.val / 4 % 16 := by omega
    rw [this])
  have e3 : (t.val - 1) % 4 + 1 = 3 := by omega
  rw [e1, e2, e3, h1]
  exact (runs_succ _ 3).symm.trans (runs_four _)

/-- The same for an index of the block given whole. -/
theorem output_block (c : Dev nD) (t : Fin cfg0.N) (h1 : t.val % 4 = 3) (y : S512x1024.Idx) :
    k0_pay3 (F := Ideal) (k0_pay2 (xblk m c t) (wblk m c t) (outsAt0 m c (t.val - 1) (Nat.lt_of_le_of_lt (Nat.sub_le _ _) t.isLt)).2) (bblk m c t) y
      = result m c (ix2 (rowOf t.val (y 0)) (colOf t.val (y 1))) := by
  obtain ⟨p, q, rfl⟩ : ∃ (p : Fin 512) (q : Fin 1024), y = ix2 p q := ⟨y 0, y 1, eq_ix2 y⟩
  exact output_at_last m c t h1 p q

/-- WHAT A FLUSHING POINT WRITES BACK is its block of the layer's value. -/
theorem flushed_eq (c : Dev nD) (t : Fin cfg0.N) (hf : (cfg0.win 3).flush t = true) :
    (dats m 0 c).flushed 3 t = ((cfg0.win 3).blk t).view.read (Elt Ideal) (result m c) := by
  have hN := point_lt t
  have h1 : t.val % 4 = 3 := (flush0_3 t).mp hf
  have h0 : ¬t.val % 4 = 0 := by omega
  obtain ⟨-, -, -, -, -, -, e6, e7⟩ := idx_facts t
  rw [Value.flushed3_C m c t h0 h1]
  rw [output_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1)
    (iblk m c 0 t) (iblk m c 1 t) (iblk m c 2 t) (outsAt0 m c (t.val - 1) (Nat.lt_of_le_of_lt (Nat.sub_le _ _) t.isLt)).2]
  funext j
  refine (output_block m c t h1 j).trans (congrArg (result m c) (funext fun a => Fin.ext ?_))
  match a with
  | ⟨0, _⟩ =>
    show (512 * (t.val / 64) + (j 0).val) % 8192 = win0_3.index t (0 : Fin 2) * 512 + 1 * (j 0).val
    have hj : (j 0).val < 512 := (j 0).isLt
    rw [e6]; omega
  | ⟨1, _⟩ =>
    show (1024 * (t.val / 4 % 16) + (j 1).val) % 16384 = win0_3.index t (1 : Fin 2) * 1024 + 1 * (j 1).val
    have hj : (j 1).val < 1024 := (j 1).isLt
    rw [e7]; omega

/-- An entry of the result is in a point's output block iff each coordinate is in the block's range. -/
theorem mem_blk (t : Fin cfg0.N) (i : S8192x16384.Idx) :
    i ∈ ((cfg0.win 3).blk t).view.set ↔ ∀ a : Fin 2, win0_3.index t a * S512x1024.size a ≤ (i a).val
      ∧ (i a).val < win0_3.index t a * S512x1024.size a + S512x1024.size a := by
  show i ∈ ((View.whole main_v1).slice (win0_3.rect t)).set ↔ _
  rw [View.set_slice_whole, Rect.mem_set_unit]
  exact Iff.rfl

/-- Every entry of the result is written back by the last K-step's point of its output block. -/
theorem cover (i : S8192x16384.Idx) :
    ∃ t : Fin cfg0.N, (cfg0.win 3).flush t = true ∧ i ∈ ((cfg0.win 3).blk t).view.set := by
  have hi0 : (i 0).val < 8192 := (i 0).isLt
  have hi1 : (i 1).val < 16384 := (i 1).isLt
  have hn : ((i 0).val / 512 * 16 + (i 1).val / 1024) * 4 + 3 < cfg0.N := by
    rw [show cfg0.N = 1024 from N_0]; omega
  obtain ⟨-, -, -, -, -, -, e6, e7⟩ := idx_facts ⟨_, hn⟩
  have e6' : win0_3.index ⟨_, hn⟩ (0 : Fin 2) = (((i 0).val / 512 * 16 + (i 1).val / 1024) * 4 + 3) / 64 := e6
  have e7' : win0_3.index ⟨_, hn⟩ (1 : Fin 2) = (((i 0).val / 512 * 16 + (i 1).val / 1024) * 4 + 3) / 4 % 16 := e7
  refine ⟨⟨_, hn⟩, (flush0_3 _).mpr (by show (((i 0).val / 512 * 16 + (i 1).val / 1024) * 4 + 3) % 4 = 3; omega), ?_⟩
  rw [mem_blk]
  intro a
  match a with
  | ⟨0, _⟩ =>
    show win0_3.index ⟨_, hn⟩ (0 : Fin 2) * 512 ≤ (i 0).val ∧ (i 0).val < win0_3.index ⟨_, hn⟩ (0 : Fin 2) * 512 + 512
    rw [e6']; omega
  | ⟨1, _⟩ =>
    show win0_3.index ⟨_, hn⟩ (1 : Fin 2) * 1024 ≤ (i 1).val ∧ (i 1).val < win0_3.index ⟨_, hn⟩ (1 : Fin 2) * 1024 + 1024
    rw [e7']; omega

/-- THE RESULT ARRAY after the run is the layer's value. -/
theorem final (c : Dev nD) : (dats m 0 c).arrAt 3 cfg0.N = result m c :=
  (dats m 0 c).arrAt_eq_of_cover 3 (result m c) (flushed_eq m c) cover

/-- The kernel's run, read: the result array at the layer's value of the arguments, the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (Value.run_blocks m ρ)

end Cert.KernelIdeal.Ternary

end
-- ==== Proof.ReferenceValue.lean ====
/-
  The reference computes the ternary linear layer.

  Read one operation at a time, the reference builds `w + (code w - w)` entry by entry (two compares against the
  threshold words, two selections, a subtraction and an addition), contracts row `p` of `x` with row `q` of that
  array over their common last axis, and adds the bias of column `q`. For real weights the straight-through identity
  turns `w + (code w - w)` into `code w`, and what is left is the layer's value
  `∑ k, x (p, k) * code (w (q, k)) + b q`.
-/
import proofs.«148540_j31207232372816_1_alg».proof.Proof.Gen.ReferenceIdeal.Read
import proofs.«148540_j31207232372816_1_alg».proof.Proof.TernarySpec

noncomputable section

namespace Cert.ReferenceIdeal.Ternary

open Cert.ReferenceIdeal Cert.ReferenceIdeal.Gen Cert.ReferenceIdeal.Read Idealize.ShloMosaic Idealize.ShloMosaic.ValueIdx

/-- The array the reference contracts with: at a real weight, its entry is the weight's code. -/
theorem straight_through_apply (w : (⟨S16384x4096, .f32⟩ : BufTy).Contents (Elt Ideal)) (j : S16384x4096.Idx)
    (a : ℝ) (ha : w j = (a : EReal)) : val_main_v8 (F := Ideal) w j = Cert.Ternary.code (w j) := by
  simp only [val_main_v8_apply, val_main_v7_apply, val_main_v6_apply, val_main_v5_apply, val_main_v1_apply,
    val_main_v0_apply, val_main_cst_apply, val_main_call1_v0_apply, val_main_cst_3_apply, val_main_v4_apply,
    val_main_v3_apply, val_main_v2_apply, val_main_cst_0_apply, val_main_call0_v0_apply, val_main_cst_1_apply,
    val_main_call0_v1_apply, val_main_cst_2_apply]
  rw [ha]
  exact Cert.Ternary.add_code_sub_self a

/-- The reference's result, for real weights, is the layer's value. -/
theorem result_eq_linear (x : (⟨S8192x4096, .f32⟩ : BufTy).Contents (Elt Ideal)) (w : (⟨S16384x4096, .f32⟩ : BufTy).Contents (Elt Ideal))
    (b : (⟨S16384, .f32⟩ : BufTy).Contents (Elt Ideal)) (hw : ∀ j, ∃ a : ℝ, w j = (a : EReal)) :
    val_main_v12 (F := Ideal) x w b = Cert.Ternary.linear x w b := by
  funext i
  obtain ⟨p, q, rfl⟩ : ∃ (p : Fin 8192) (q : Fin 16384), i = ix2 p q := ⟨i 0, i 1, eq_ix2 i⟩
  rw [val_main_v12_apply, val_main_v9_apply, val_main_v11_apply, val_main_v10_apply]
  show (∑ k : Fin 4096, x (lidx_main_v9 (ix2 p q) k) * val_main_v8 (F := Ideal) w (ridx_main_v9 (ix2 p q) k))
        + b (idx_main_v10 (idx_main_v11 (ix2 p q)))
      = (∑ k : Fin 4096, x (ix2 p k) * Cert.Ternary.code (w (ix2 q k))) + b (ix1 q)
  have el : ∀ k : Fin 4096, lidx_main_v9 (ix2 p q) k = ix2 p k := fun k =>
    funext fun a => Fin.ext (by match a with | ⟨0, _⟩ => rfl | ⟨1, _⟩ => rfl)
  have er : ∀ k : Fin 4096, ridx_main_v9 (ix2 p q) k = ix2 q k := fun k =>
    funext fun a => Fin.ext (by match a with | ⟨0, _⟩ => rfl | ⟨1, _⟩ => rfl)
  have eb : idx_main_v10 (idx_main_v11 (ix2 p q)) = ix1 q :=
    funext fun a => Fin.ext (by match a with | ⟨0, _⟩ => rfl)
  rw [eb]
  refine congrArg (· + b (ix1 q)) (Finset.sum_congr rfl fun k _ => ?_)
  rw [el k, er k]
  obtain ⟨a, ha⟩ := hw (ix2 q k)
  exact congrArg (x (ix2 p k) * ·) (straight_through_apply w _ a ha)

end Cert.ReferenceIdeal.Ternary

end
-- ==== Proof.FiniteWeight.lean ====
/-
  From the precondition to "every weight is a real number".

  The precondition is the conjunction of three tests, one per input, each saying that every entry's absolute value is
  below `+∞`. Only the middle one is needed: the straight-through identity `w + (code w - w) = code w` holds for a
  finite `w` and fails at an infinity. An extended real whose absolute value `max w (-w)` is below `+∞` is neither
  `+∞` nor `-∞`, so it is a real.
-/
import proofs.«148540_j31207232372816_1_alg».proof.Pre_finite_inputs
import Idealize.ShloMosaic.PureOps.Ideal
import Idealize.ShloMosaic.Lib.ReduceAll
import Idealize.ShloMosaic.Lib.Affine
import Idealize.ShloMosaic.Lib.ValueIdx

noncomputable section

namespace Cert.Ternary.Pre

open Idealize.ShloMosaic

/-- The rank-zero shape has one index. -/
instance : Subsingleton Cert.Pre_finite_inputs.S_.Idx := ⟨fun _ _ => funext fun d => d.elim0⟩

/-- The word `0x7F800000` denotes `+∞`. -/
theorem ofBits_inf_f32 : Ideal.ofBits .f32 0x7F800000#32 = ⊤ := by simp [Ideal.ofBits, Ideal.ieee]

/-- An extended real whose absolute value compares below `+∞` is a real number. -/
theorem real_of_abs_lt_inf (w : EReal)
    (h : Ideal.cmp .olt (max w (-w)) (Ideal.ofBits .f32 0x7F800000#32) = 1#1) : ∃ a : ℝ, w = (a : EReal) := by
  rw [ofBits_inf_f32] at h
  have hlt : max w (-w) < ⊤ := by
    by_contra hn
    simp [Ideal.cmp, hn] at h
  induction w using EReal.rec with
  | bot => simp at hlt
  | top => simp at hlt
  | coe a => exact ⟨a, rfl⟩

/-- Under the precondition every entry of the second input, the weights, is a real number. -/
theorem weight_real [Cert.Pre_finite_inputs.Facts] (x0 : FVec Ideal Cert.Pre_finite_inputs.S8192x4096 .f32)
    (x1 : FVec Ideal Cert.Pre_finite_inputs.S16384x4096 .f32) (x2 : FVec Ideal Cert.Pre_finite_inputs.S16384 .f32)
    (h : Cert.Pre_finite_inputs.fn (F := Ideal) x0 x1 x2 = fun _ => 1#1) (j : Cert.Pre_finite_inputs.S16384x4096.Idx) :
    ∃ a : ℝ, x1 j = (a : EReal) := by
  have h0 := congrFun h ValueIdx.ix0
  dsimp only [Cert.Pre_finite_inputs.fn] at h0
  change IntOp.andi _ _ = 1#1 at h0
  have h1 := (IntOp.andi_eq_one.1 h0).1
  change IntOp.andi _ _ = 1#1 at h1
  have h2 := (IntOp.andi_eq_one.1 h1).2
  have h3 := Host.reduce_andi_all _ _ _ _ _ h2 j
  exact real_of_abs_lt_inf (x1 j) h3

end Cert.Ternary.Pre

end
-- ==== Proof.lean ====
/-
  A ternary-weight linear layer: `x · code(w)ᵀ + b` for `x` [8192, 4096], `w` [16384, 4096], `b` [16384], where
  `code` sends a weight to `+1` above a threshold, `-1` below its negative and `0` between.

  The kernel computes each 512 × 1024 block of the result in four steps along the contracted axis: it clears a running
  block, adds in turn the four products of a 512 × 1024 block of `x` with the transpose of the coded 1024 × 1024 block
  of `w`, and at the fourth step writes the running block plus the bias row. The reference codes the weights through
  the straight-through form `w + (code w - w)`, contracts the whole of `x` with the whole of that array, and adds the
  bias.

  On the extended reals the two agree for finite inputs, for three reasons. Narrowing a float changes nothing. A sum
  over 4096 positions taken whole is the sum of its four runs of 1024 added in order from zero: addition of extended
  reals is commutative and associative. And `w + (code w - w) = code w` for a real `w`, because `code w` is always a
  real; this one needs the precondition, since at an infinite `w` the difference `code w - w` does not cancel.

  The frames: the kernel's two are the generated frames; the reference has no kernel and its frame is its run with the
  result dropped. The idealization rewrote nothing, so `preserves` has nothing to state.
-/
import proofs.«148540_j31207232372816_1_alg».proof.Defs
import proofs.«148540_j31207232372816_1_alg».proof.Proof.Gen.Kernel
import proofs.«148540_j31207232372816_1_alg».proof.Proof.Gen.Kernel.Skeleton
import proofs.«148540_j31207232372816_1_alg».proof.Proof.Gen.Kernel.Launch
import proofs.«148540_j31207232372816_1_alg».proof.Proof.Gen.Kernel.Points
import proofs.«148540_j31207232372816_1_alg».proof.Proof.Gen.Kernel.Frame
import proofs.«148540_j31207232372816_1_alg».proof.Proof.Gen.KernelIdeal
import proofs.«148540_j31207232372816_1_alg».proof.Proof.Gen.KernelIdeal.Skeleton
import proofs.«148540_j31207232372816_1_alg».proof.Proof.Gen.KernelIdeal.Launch
import proofs.«148540_j31207232372816_1_alg».proof.Proof.Gen.KernelIdeal.Points
import proofs.«148540_j31207232372816_1_alg».proof.Proof.Gen.KernelIdeal.Frame
import proofs.«148540_j31207232372816_1_alg».proof.Proof.Gen.ReferenceIdeal
import proofs.«148540_j31207232372816_1_alg».proof.Proof.Gen.Pre_finite_inputs
import proofs.«148540_j31207232372816_1_alg».proof.Proof.Gen.KernelIdeal.Value
import proofs.«148540_j31207232372816_1_alg».proof.Proof.Gen.ReferenceIdeal.Run
import proofs.«148540_j31207232372816_1_alg».proof.Proof.Gen.ReferenceIdeal.Read
import proofs.«148540_j31207232372816_1_alg».proof.Proof.KernelResult
import proofs.«148540_j31207232372816_1_alg».proof.Proof.ReferenceValue
import proofs.«148540_j31207232372816_1_alg».proof.Proof.FiniteWeight
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run ends with its arguments unchanged. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at the layer's value of arguments that agree: the kernel's by the running sums
    of its four steps, the reference's by the straight-through identity at the finite weights the precondition gives. -/
theorem algebraic : Cert.algebraic_KernelIdeal_ReferenceIdeal := by
  intro m ρ m' ρ' hpre hagree
  refine ⟨fun c => Cert.KernelIdeal.Ternary.result m c, Cert.KernelIdeal.Ternary.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, (hagree c).1, (hagree c).2.1, (hagree c).2.2]
  exact Cert.ReferenceIdeal.Ternary.result_eq_linear _ _ _ (fun j => Cert.Ternary.Pre.weight_real _ _ _ (hpre c) j)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
